-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 66
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x128, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x1, .f32⟩
  | .hbm, ⟨58, _⟩ => ⟨S1700000x128, .f32⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.HostChain.lean ====
/-
  The host side of the kernel's program, stretch by stretch: what each intermediate array holds when the two
  dense stages are entered, as the SAME stage functions the reference's program is read by (the edge lists with
  self loops `val_main_v3` / `val_main_v6`, the symmetric normalisation `val_main_v31`), and the scatter-add
  aggregation of the normalised messages as one function `aggOf h e` of the transformed features `h` and the
  edge index `e`. Nothing here opens a gather or a scatter: both programs apply the same host operations, so the
  two sides meet as the same term.
-/
import proofs.«155171_j38319698215460_1_alg».proof.Proof.Gen.KernelIdeal.Frame
import proofs.«155171_j38319698215460_1_alg».proof.Proof.RefRead
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]

/-- The aggregation: the transformed features `h` gathered at each edge's source, scaled by the edge's
    normalisation, and scatter-added at the edge's target (the edges with the self loops appended). -/
def aggOf (h : (⟨S100000x128, .f32⟩ : BufTy).Contents (Elt F)) (e : (⟨S2x1600000, .i32⟩ : BufTy).Contents (Elt F)) :
    (⟨S100000x128, .f32⟩ : BufTy).Contents (Elt F) :=
  Host.scatterAdd Cert.ReferenceIdeal.scatter_S100000x128_S1700000x1_S1700000x128_1_0_0_1 (Cert.ReferenceIdeal.Read.val_main_v43 (F := F)) (Cert.ReferenceIdeal.Read.val_main_v44 (F := F) e)
    (mulf (Host.gather Cert.ReferenceIdeal.gather_S100000x128_S1700000x1_S1700000x128_1_0_n_n_0_1_1128 h (Cert.ReferenceIdeal.Read.val_main_v38 (F := F) e)) (Cert.ReferenceIdeal.Read.val_main_v41 (F := F) e))

variable (m : (ℓ : Loc nD τ sig) → Buf (Elt F) ℓ) (ρ : Dev nD → PrngReg)

/-- The edge index as launched. -/
abbrev edges (c : Dev nD) : (⟨S2x1600000, .i32⟩ : BufTy).Contents (Elt F) := m ((c : Thread nD τ).loc main_arg1)

/-! ## When the feature transform is entered (after the three host stretches before it)

Each buffer read back through the fold of the host operations to the launch memory: the two edge lists with the self
loops appended, the per-edge normalisation, and the arguments, which no host operation writes. -/

theorem W3_v3 (c : Dev nD) : W3 m ρ c (Proc.devRef .tc main_v3) = Cert.ReferenceIdeal.Read.val_main_v3 (F := F) (edges m c) := by
  show StableHlo.after hostOps0_2 (StableHlo.after hostOps0_1 (StableHlo.after hostOps0 (W0 m ρ c))) (Proc.devRef .tc main_v3) = _
  dsimp only [hostOps0, hostOps0_1, hostOps0_2]
  after_results_simp <;> rfl

theorem W3_v6 (c : Dev nD) : W3 m ρ c (Proc.devRef .tc main_v6) = Cert.ReferenceIdeal.Read.val_main_v6 (F := F) (edges m c) := by
  show StableHlo.after hostOps0_2 (StableHlo.after hostOps0_1 (StableHlo.after hostOps0 (W0 m ρ c))) (Proc.devRef .tc main_v6) = _
  dsimp only [hostOps0, hostOps0_1, hostOps0_2]
  after_results_simp <;> rfl

theorem W3_v31 (c : Dev nD) : W3 m ρ c (Proc.devRef .tc main_v31) = Cert.ReferenceIdeal.Read.val_main_v31 (F := F) (edges m c) := by
  show StableHlo.after hostOps0_2 (StableHlo.after hostOps0_1 (StableHlo.after hostOps0 (W0 m ρ c))) (Proc.devRef .tc main_v31) = _
  dsimp only [hostOps0, hostOps0_1, hostOps0_2]
  after_results_simp <;> rfl

theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results_simp <;> rfl

theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results_simp <;> rfl

theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results_simp <;> rfl

/-! ## When the feature transform is left: it wrote `main_v32` only -/

theorem W4_v3 (c : Dev nD) : W4 m ρ c (Proc.devRef .tc main_v3) = Cert.ReferenceIdeal.Read.val_main_v3 (F := F) (edges m c) :=
  (W4_of_ne m ρ c main_v3 (by decide)).trans (W3_v3 m ρ c)
theorem W4_v6 (c : Dev nD) : W4 m ρ c (Proc.devRef .tc main_v6) = Cert.ReferenceIdeal.Read.val_main_v6 (F := F) (edges m c) :=
  (W4_of_ne m ρ c main_v6 (by decide)).trans (W3_v6 m ρ c)
theorem W4_v31 (c : Dev nD) : W4 m ρ c (Proc.devRef .tc main_v31) = Cert.ReferenceIdeal.Read.val_main_v31 (F := F) (edges m c) :=
  (W4_of_ne m ρ c main_v31 (by decide)).trans (W3_v31 m ρ c)
theorem W4_arg3 (c : Dev nD) : W4 m ρ c (Proc.devRef .tc main_arg3) = m ((c : Thread nD τ).loc main_arg3) :=
  (W4_of_ne m ρ c main_arg3 (by decide)).trans (W3_arg3 m ρ c)
/-- The features are an input window's array of the transform: it leaves them as entered. -/
theorem W4_arg0 (c : Dev nD) : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (W3_arg0 m ρ c)

/-! ## When the closing combination is entered (after the host stretch between the two dense stages) -/

/-- The aggregated messages: `aggOf` of whatever the feature transform left in `main_v32`. -/
theorem W5_v45 (c : Dev nD) : W5 m ρ c (Proc.devRef .tc main_v45) = aggOf (W4 m ρ c (Proc.devRef .tc main_v32)) (edges m c) := by
  have h3 := W4_v3 m ρ c
  have h6 := W4_v6 m ρ c
  have h31 := W4_v31 m ρ c
  show StableHlo.after hostOps1 (W4 m ρ c) (Proc.devRef .tc main_v45) = _
  generalize W4 m ρ c = X at h3 h6 h31 ⊢
  dsimp only [hostOps1]
  after_results_simp
  rw [h3, h6, h31]
  rfl

/-- The bias as a one-row array. -/
theorem W5_v46 (c : Dev nD) : W5 m ρ c (Proc.devRef .tc main_v46) = shapeCast S1x128 (m ((c : Thread nD τ).loc main_arg3)) shapeCasts_S128_S1x128 := by
  have h := W4_arg3 m ρ c
  show StableHlo.after hostOps1 (W4 m ρ c) (Proc.devRef .tc main_v46) = _
  generalize W4 m ρ c = X at h ⊢
  dsimp only [hostOps1]
  after_results
  rw [h]
  rfl

theorem W5_arg0 (c : Dev nD) : W5 m ρ c (Proc.devRef .tc main_arg0) = m ((c : Thread nD τ).loc main_arg0) := by
  have h := W4_arg0 m ρ c
  show StableHlo.after hostOps1 (W4 m ρ c) (Proc.devRef .tc main_arg0) = _
  generalize W4 m ρ c = X at h ⊢
  dsimp only [hostOps1]
  after_results
  exact h

end Cert.KernelIdeal.Host

end
-- ==== Proof.Spec.lean ====
/-
  What the two dense stages of the graph-convolution layer compute, index by index over the extended reals:
  the feature transform `x · W` (entry `(r, j)` is the sum over `k` of `x[r, k] · W[k, j]`) and the closing
  combination `(x + agg) + b` of the residual, the aggregated messages and the bias row.
-/
import proofs.«155171_j38319698215460_1_alg».proof.KernelIdeal
import Idealize.ShloMosaic.PureOps.Ideal
import Idealize.ShloMosaic.Lib.ValueIdx

noncomputable section

namespace Cert.Spec

open Idealize.ShloMosaic Cert.KernelIdeal

/-- The transformed features: entry `(r, j)` is row `r` of `x` against column `j` of `w`. -/
def mm (x : FVec Ideal S100000x128 .f32) (w : FVec Ideal S128x128 .f32) : FVec Ideal S100000x128 .f32 :=
  fun i => ∑ k : Fin 128, x (ValueIdx.ix2 (⟨(i 0).val, (i 0).isLt⟩ : Fin 100000) k) * w (ValueIdx.ix2 k (⟨(i 1).val, (i 1).isLt⟩ : Fin 128))

/-- The layer's output: entry `(r, j)` is `(x[r, j] + a[r, j]) + b[0, j]`. -/
def comb (x a : FVec Ideal S100000x128 .f32) (b : FVec Ideal S1x128 .f32) : FVec Ideal S100000x128 .f32 :=
  fun i => (x i + a i) + b (ValueIdx.ix2 (0 : Fin 1) (⟨(i 1).val, (i 1).isLt⟩ : Fin 128))

end Cert.Spec

end
-- ==== Proof.Region0.lean ====
/-
  Region 0 of the layer: the feature transform. The grid's 20 points each multiply one tile of 5000 rows of the
  features by the whole weight matrix and write the product to the same 5000 rows of the output; on the extended
  reals that product's entry `(p, q)` is the plain sum over `k` of `x[p, k] · W[k, q]`. The 20 tiles fill the
  100000 rows, so after the region the output array is the transformed features everywhere.
-/
import proofs.«155171_j38319698215460_1_alg».proof.Proof.Gen.KernelIdeal.Frame
import proofs.«155171_j38319698215460_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Cert.KernelIdeal Cert.KernelIdeal.Gen
open Idealize.ShloMosaic.Pipeline (Dat)

/-! ## The tile product at an index -/

/-- The left operand's free axis (rows) follows the output's row. -/
theorem lhs_tile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's contracted axis (columns) is the summation index. -/
theorem lhs_tile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's contracted axis (rows) is the summation index. -/
theorem rhs_tile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's free axis (columns) follows the output's column. -/
theorem rhs_tile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One tile's product at entry `(p, q)`: on the extended reals the two roundings to half width are the identity and
    the accumulation into zero is the plain sum, so the entry is row `p` of the tile against column `q` of the weights. -/
theorem tile_apply (x0 : Vec Ideal S5000x128 .f32) (x1 : Vec Ideal S128x128 .f32) (p : Fin 5000) (q : Fin 128) :
    k0_pay1 (F := Ideal) x0 x1 (ValueIdx.ix2 p q) = ∑ k : Fin 128, x0 (ValueIdx.ix2 p k) * x1 (ValueIdx.ix2 k q) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_tile_0 _ _
    | ⟨1, _⟩ => exact (lhs_tile_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_tile_0 _ _).trans hk
    | ⟨1, _⟩ => exact rhs_tile_1 _ _)
  rw [el, er]
  rfl

/-! ## Where each window's block sits, at a grid point -/

theorem zeros_eq : (![0, 0] : Fin 2 → Nat) = fun _ => 0 := funext fun a => by fin_cases a <;> rfl

/-- The printed index maps, decided once over the 20 grid points: the feature tile and the output tile move together
    down the rows and never across the columns; the weights stay at block (0, 0). -/
theorem tile_index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks is some grid point's. -/
theorem tile_index_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- The feature tile at point `t`, at `(p, k)`, is the feature array at row `(block row) · 5000 + p`, column `k`. -/
theorem x_tile_apply (c : Dev nD) (t : Fin cfg0.N) (p : Fin 5000) (k : Fin 128) (r : Fin 100000)
    (hr : r.val = win0_2.index t (0 : Fin 2) * 5000 + p.val) :
    (iblk0 (F := Ideal) V c 0 t : Vec Ideal S5000x128 .f32) (ValueIdx.ix2 p k)
      = (V c main_arg0 : S100000x128.Idx → Elt Ideal .f32) (ValueIdx.ix2 r k) := by
  obtain ⟨e0, e1, e2, e3, e4, e5⟩ := tile_index_facts t
  unfold iblk0
  rw [View.read_apply]
  show V c main_arg0 _ = V c main_arg0 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The weights' block at every point is the whole weight matrix. -/
theorem w_block_apply (c : Dev nD) (t : Fin cfg0.N) (k : Fin 128) (q : Fin 128) :
    (iblk0 (F := Ideal) V c 1 t : Vec Ideal S128x128 .f32) (ValueIdx.ix2 k q)
      = (V c main_arg2 : S128x128.Idx → Elt Ideal .f32) (ValueIdx.ix2 k q) := by
  obtain ⟨e0, e1, e2, e3, e4, e5⟩ := tile_index_facts t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-! ## What a point writes back, and the whole array -/

/-- WHAT POINT `t` WRITES BACK is block `t` of the transformed features: the tile's entry `(p, q)` is the product's
    entry at row `(block row) · 5000 + p`, column `q`. -/
theorem flushed_eq (c : Dev nD) (t : Fin cfg0.N) :
    (dat0 (F := Ideal) V c).flushed 2 t
      = ((cfg0.win 2).blk t).view.read (Elt Ideal) (Cert.Spec.mm (V c main_arg0) (V c main_arg2)) := by
  show (cfg0.win 2).cut (grid0.coords t) ((dat0 V c).after 2 t) = _
  rw [after0_2]
  unfold out0_2
  rw [View.canon_unit_zero zeros_eq]
  simp only [View.ld_unit_zero (S := S5000x128) zeros_eq, View.ld_unit_zero (S := S128x128) zeros_eq]
  obtain ⟨e0, e1, e2, e3, e4, e5⟩ := tile_index_facts t
  funext j
  obtain ⟨p, q, rfl⟩ : ∃ (p : Fin 5000) (q : Fin 128), j = ValueIdx.ix2 p q := ⟨j 0, j 1, ValueIdx.eq_ix2 j⟩
  rw [View.read_apply]
  show k0_pay1 (F := Ideal) (iblk0 V c 0 t) (iblk0 V c 1 t) (ValueIdx.ix2 p q) = Cert.Spec.mm (V c main_arg0) (V c main_arg2) _
  rw [tile_apply]
  unfold Cert.Spec.mm
  refine Finset.sum_congr rfl fun k _ => ?_
  have hp : p.val < 5000 := p.isLt
  rw [x_tile_apply V c t p k ⟨win0_2.index t (0 : Fin 2) * 5000 + p.val, by omega⟩ rfl, w_block_apply V c t k q]
  congr 2
  · congr 1
    apply Fin.ext
    show win0_2.index t (0 : Fin 2) * 5000 + p.val = win0_2.index t (0 : Fin 2) * 5000 + 1 * p.val
    omega
  · congr 1
    apply Fin.ext
    show q.val = win0_2.index t (1 : Fin 2) * 128 + 1 * q.val
    omega

/-- An index of the array is in point `t`'s block iff each coordinate is in the block's range on its axis. -/
theorem mem_tile (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The 20 tiles of 5000 rows fill the 100000 rows: row `r` is in the block of the point whose block row is `r / 5000`. -/
theorem tiles_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := tile_index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE ARRAY after the region: the transformed features, entry `(r, j)` the sum over `k` of `x[r, k] · W[k, j]`. -/
theorem arrAt_eq (V : (c : Dev nD) → (b : Ref sig .tc) → Buf (Elt Ideal) ((c : Thread nD τ).loc b)) (c : Dev nD) :
    (dat0 (F := Ideal) V c).arrAt 2 cfg0.N = Cert.Spec.mm (V c main_arg0) (V c main_arg2) :=
  (dat0 (F := Ideal) V c).arrAt_eq_of_cover 2 (Cert.Spec.mm (V c main_arg0) (V c main_arg2))
    (fun t _ => flushed_eq V c t) tiles_cover

end Cert.KernelIdeal.Region0

end
-- ==== Proof.Region1.lean ====
/-
  The closing combination of the graph-convolution layer, read as one array.

  The second kernel region walks a grid of 20 points. At point `t` it sees rows `5000·t … 5000·t + 4999` of the residual
  `x` and of the aggregated messages `agg`, the whole bias row `b`, and writes the same rows of the output:
  `o = (x + agg) + b`, the bias row repeated down the 5000 rows of the tile. Every point writes its tile back and the 20
  tiles of 5000 rows fill the 100000 rows, so after the region the output array holds, at every `(r, j)`,
  `(x[r, j] + agg[r, j]) + b[0, j]` over the extended reals: `Cert.Spec.comb` of the three arrays as the region finds
  them.
-/
import proofs.«155171_j38319698215460_1_alg».proof.Proof.Gen.KernelIdeal.Frame
import proofs.«155171_j38319698215460_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Cert.KernelIdeal Cert.KernelIdeal.Gen
open Idealize.ShloMosaic.ValueIdx (ix2 eq_ix2)

/-- The body loads and stores whole tiles: the offsets `[0, 0]` are the zero offsets. -/
theorem zero_offsets : (![0, 0] : Fin 2 → Nat) = fun _ => 0 := funext fun a => by fin_cases a <;> rfl

/-! ## The tile's arithmetic at one element -/

/-- The body's result at `(p, q)` of a tile: the two casts are of a shape to itself, the sums are elementwise, and the
    bias row `[1, 128]` repeated over the 5000 rows reads, at `(p, q)`, its one row at column `q`. -/
theorem combine_apply (x0 x1 : Vec Ideal S5000x128 .f32) (x2 : Vec Ideal S1x128 .f32) (p : Fin 5000) (q : Fin 128) :
    k1_pay1 x0 x1 x2 (ix2 p q) = (x0 (ix2 p q) + x1 (ix2 p q)) + x2 (ix2 (0 : Fin 1) q) := by
  unfold k1_pay1
  rw [ValueIdx.addf_apply, ValueIdx.addf_apply, shapeCast_self, shapeCast_self, ValueIdx.broadcastTo_1b_ab_apply]

/-! ## Where the tiles sit -/

/-- The index maps over the grid of 20 points: the tiles of `x`, of `agg` and of the output have the same row-block
    index and column-block index 0; the bias row is always block `(0, 0)`; the output's row-block index is at most 19. -/
theorem block_index_facts : ∀ t : Fin cfg1.N,
    win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Each of the 20 row blocks of the output is some point's. -/
theorem block_onto : ∀ q0 : Fin 20, ∃ t : Fin cfg1.N, win1_3.index t = ![q0.val, 0] :=
  (by decide +kernel : ∀ q0 : Fin 20, ∃ t : Fin grid1.N, win1_3.index t = ![q0.val, 0])

/-- At a grid point the tiles of `x`, of `agg` and of the output are the same rows of their arrays (element `(p, q)` of
    each is the array's element `(5000·block + p, q)`), and the bias is read at `(0, q)`: the tile's combination at
    `(p, q)` is the arrays' combination at the output tile's element `(p, q)`. -/
theorem point_eq (X A : FVec Ideal S100000x128 .f32) (B : FVec Ideal S1x128 .f32) (t : Fin cfg1.N) (p : Fin 5000) (q : Fin 128) :
    (X (((cfg1.win 0).blk t).view.emb (ix2 p q)) + A (((cfg1.win 1).blk t).view.emb (ix2 p q)))
        + B (((cfg1.win 2).blk t).view.emb (ix2 (0 : Fin 1) q))
      = Cert.Spec.comb X A B (((cfg1.win 3).blk t).view.emb (ix2 p q)) := by
  obtain ⟨e00, e01, e10, e11, e20, e21, e31, e30⟩ := block_index_facts t
  -- a block's element sits at block index × block size + 1 × its coordinate inside the block, axis by axis
  have h0 : ((cfg1.win 0).blk t).view.emb (ix2 p q) = ((cfg1.win 3).blk t).view.emb (ix2 p q) := by
    funext a; apply Fin.ext
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : ((cfg1.win 1).blk t).view.emb (ix2 p q) = ((cfg1.win 3).blk t).view.emb (ix2 p q) := by
    funext a; apply Fin.ext
    match a with
    | ⟨0, _⟩ => show win1_1.index t (0 : Fin 2) * 5000 + 1 * p.val = win1_3.index t (0 : Fin 2) * 5000 + 1 * p.val; omega
    | ⟨1, _⟩ => show win1_1.index t (1 : Fin 2) * 128 + 1 * q.val = win1_3.index t (1 : Fin 2) * 128 + 1 * q.val; omega
  -- the bias row's element (0, q) is the array's (0, column of the output element)
  have h2 : ((cfg1.win 2).blk t).view.emb (ix2 (0 : Fin 1) q)
      = ix2 (0 : Fin 1) (⟨((((cfg1.win 3).blk t).view.emb (ix2 p q)) 1).val, ((((cfg1.win 3).blk t).view.emb (ix2 p q)) 1).isLt⟩ : Fin 128) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  rw [h0, h1, h2]
  rfl

/-! ## What a point writes back -/

/-- Point `t` writes back tile `t` of the combination of the three arrays as the region finds them. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.comb (V c main_arg0) (V c main_v45) (V c main_v46)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q) = _
  rw [combine_apply]
  exact point_eq (V c main_arg0) (V c main_v45) (V c main_v46) t p q

/-! ## The tiles fill the array -/

/-- An index of the output array is in point `t`'s tile iff each coordinate is in the tile's range on its axis. -/
theorem mem_block (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v47).slice (win1_3.rect t)).set ↔ _
  rw [View.set_slice_whole, Rect.mem_set_unit]
  exact Iff.rfl

/-- Every element `(r, j)` of the output is in the tile of the point whose row block is `r / 5000`, and that point
    writes its tile back. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := block_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-! ## The output array after the region -/

/-- After the region the output array is the combination `(x + agg) + b` of the residual, the aggregated messages and
    the bias row as the region finds them, element by element. -/
theorem arrAt_eq (V : (c : Dev nD) → (b : Ref sig .tc) → Buf (Elt Ideal) ((c : Thread nD τ).loc b)) (c : Dev nD) :
    (dat1 (F := Ideal) V c).arrAt 3 cfg1.N = Cert.Spec.comb (V c main_arg0) (V c main_v45) (V c main_v46) :=
  (dat1 V c).arrAt_eq_of_cover 3 _ (fun t _ => flushed_eq V c t) covered

end Cert.KernelIdeal.Region1

end
-- ==== Proof.KernelValue.lean ====
/-
  The kernel's result array as one function of the launched arguments: the closing combination's array after its
  twenty row tiles (`Spec.comb` of the arrays it is entered with), those arrays read back through the host stretch
  between the dense stages, and the feature transform's array after its twenty row tiles (`Spec.mm`).
-/
import proofs.«155171_j38319698215460_1_alg».proof.Proof.HostChain
import proofs.«155171_j38319698215460_1_alg».proof.Proof.Region0
import proofs.«155171_j38319698215460_1_alg».proof.Proof.Region1
import proofs.«155171_j38319698215460_1_alg».proof.Proof.Spec
import Idealize.ShloMosaic.Lib.Pipeline.Value

set_option maxRecDepth 16384

noncomputable section

namespace Cert.KernelIdeal.Result

open Idealize.ShloMosaic Idealize.ShloMosaic.TcCoe Idealize.SL.Sem
open Cert.KernelIdeal Cert.KernelIdeal.Gen Cert.KernelIdeal.Host

variable (m : (ℓ : Loc nD τ sig) → Buf (Elt Ideal) ℓ) (ρ : Dev nD → PrngReg)

/-- What the feature transform leaves in `main_v32`: the product of the launched features and weights. -/
theorem W4_v32 (c : Dev nD) :
    W4 m ρ c (Proc.devRef .tc main_v32) = Cert.Spec.mm (m ((c : Thread nD τ).loc main_arg0)) (m ((c : Thread nD τ).loc main_arg2)) :=
  (W4_arr m ρ c 2).trans ((Cert.KernelIdeal.Region0.arrAt_eq (V3 m ρ) c).trans (by
    rw [show V3 m ρ c main_arg0 = m ((c : Thread nD τ).loc main_arg0) from W3_arg0 m ρ c,
      show V3 m ρ c main_arg2 = m ((c : Thread nD τ).loc main_arg2) from W3_arg2 m ρ c]))

/-- THE KERNEL'S RESULT: what the closing combination leaves in `main_v47`, as one function of the launched arguments:
    `(x + aggOf (x · W) e) + b`. -/
theorem result (c : Dev nD) :
    W6 m ρ c (Proc.devRef .tc main_v47)
      = Cert.Spec.comb (m ((c : Thread nD τ).loc main_arg0))
          (aggOf (Cert.Spec.mm (m ((c : Thread nD τ).loc main_arg0)) (m ((c : Thread nD τ).loc main_arg2))) (edges m c))
          (shapeCast S1x128 (m ((c : Thread nD τ).loc main_arg3)) shapeCasts_S128_S1x128) :=
  (W6_arr m ρ c 3).trans ((Cert.KernelIdeal.Region1.arrAt_eq (V5 m ρ) c).trans (by
    rw [show V5 m ρ c main_arg0 = m ((c : Thread nD τ).loc main_arg0) from W5_arg0 m ρ c,
      show V5 m ρ c main_v45 = _ from W5_v45 m ρ c,
      show V5 m ρ c main_v46 = _ from W5_v46 m ρ c, W4_v32]))

end Cert.KernelIdeal.Result

end
-- ==== Proof.Bridge.lean ====
/-
  The reference's result, stage by stage, is the kernel's: its `dot_general` of the features with the weights is the
  entrywise sum `Spec.mm`; its aggregation is the same function `aggOf` of that product and the edge index; and its
  closing `x + (agg + b)` is the kernel's `(x + agg) + b`, because addition of extended reals is associative (no
  finiteness is needed: no term is moved across a sum and nothing is cancelled).
-/
import proofs.«155171_j38319698215460_1_alg».proof.Proof.RefRead
import proofs.«155171_j38319698215460_1_alg».proof.Proof.HostChain
import proofs.«155171_j38319698215460_1_alg».proof.Proof.Spec
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem
open Cert.ReferenceIdeal Cert.ReferenceIdeal.Read

/-- The left operand's index of the reference's contraction is row `i 0`, column `k` … -/
theorem lidx_eq (i : S100000x128.Idx) (k : Fin 128) :
    lidx_main_v32 i k = ValueIdx.ix2 (⟨(i 0).val, (i 0).isLt⟩ : Fin 100000) k :=
  funext fun a => match a with | ⟨0, _⟩ => rfl | ⟨1, _⟩ => rfl
/-- … and the right operand's is row `k`, column `i 1`. -/
theorem ridx_eq (i : S100000x128.Idx) (k : Fin 128) :
    ridx_main_v32 i k = ValueIdx.ix2 k (⟨(i 1).val, (i 1).isLt⟩ : Fin 128) :=
  funext fun a => match a with | ⟨0, _⟩ => rfl | ⟨1, _⟩ => rfl

/-- The reference's `x @ W` is the entrywise sum of products. -/
theorem v32_eq_mm (x : (⟨S100000x128, .f32⟩ : BufTy).Contents (Elt Ideal)) (w : (⟨S128x128, .f32⟩ : BufTy).Contents (Elt Ideal)) :
    val_main_v32 (F := Ideal) x w = Cert.Spec.mm x w := by
  funext i
  rw [val_main_v32_apply]
  unfold Cert.Spec.mm
  refine Finset.sum_congr rfl fun k _ => ?_
  rw [lidx_eq, ridx_eq]

/-- The reference's aggregation is `aggOf` of its product and the edge index (the same host operations, by name). -/
theorem v45_eq_agg {F : FTy → Type} [FloatOps F] (x : (⟨S100000x128, .f32⟩ : BufTy).Contents (Elt F)) (e : (⟨S2x1600000, .i32⟩ : BufTy).Contents (Elt F))
    (w : (⟨S128x128, .f32⟩ : BufTy).Contents (Elt F)) :
    val_main_v45 (F := F) x e w = Cert.KernelIdeal.Host.aggOf (val_main_v32 (F := F) x w) e := by
  unfold val_main_v45 val_main_v42 val_main_v39 Cert.KernelIdeal.Host.aggOf
  rfl

/-- The bias row read at column `j`: the one-row array the kernel's program makes of it holds `b[j]` at `(0, j)`. -/
theorem bias_row (b : (⟨S128, .f32⟩ : BufTy).Contents (Elt Ideal)) (i : S100000x128.Idx) :
    shapeCast Cert.KernelIdeal.S1x128 b Cert.KernelIdeal.Gen.shapeCasts_S128_S1x128 (ValueIdx.ix2 (0 : Fin 1) (⟨(i 1).val, (i 1).isLt⟩ : Fin 128))
      = b (idx_main_v46 (idx_main_v47 i)) :=
  shapeCast_apply b _ _ _ (by
    rewrite [Shape.rowMajor_val_two, Shape.rowMajor_val_one]
    show (i 1).val = 0 * 128 + (i 1).val
    omega)

/-- THE RESULTS AGREE: the reference's `x + (agg + b)` is the kernel's `(x + agg) + b`, entry by entry. -/
theorem ref_eq (x : (⟨S100000x128, .f32⟩ : BufTy).Contents (Elt Ideal)) (e : (⟨S2x1600000, .i32⟩ : BufTy).Contents (Elt Ideal))
    (w : (⟨S128x128, .f32⟩ : BufTy).Contents (Elt Ideal)) (b : (⟨S128, .f32⟩ : BufTy).Contents (Elt Ideal)) :
    val_main_v49 (F := Ideal) x e w b
      = Cert.Spec.comb x (Cert.KernelIdeal.Host.aggOf (Cert.Spec.mm x w) e) (shapeCast Cert.KernelIdeal.S1x128 b Cert.KernelIdeal.Gen.shapeCasts_S128_S1x128) := by
  funext i
  rw [val_main_v49_apply, val_main_v48_apply, val_main_v47_apply, val_main_v46_apply, v45_eq_agg, v32_eq_mm]
  unfold Cert.Spec.comb
  rw [bias_row]
  exact (add_assoc _ _ _).symm

end Cert.Bridge

end
-- ==== Proof.lean ====
/-
  A graph-convolution layer with a residual: `out = x + (Â · (x W) + b)`, where `Â` is the symmetrically normalised
  adjacency with self loops, applied as a gather of the transformed features at each edge's source, a scaling by
  the edge's normalisation and a scatter-add at the edge's target. The kernel's program computes the two dense
  stages in row tiles of 5000 — the feature transform `h = x W` (a matrix product into a zero accumulator, whose
  narrowing of the operands is the identity on the extended reals) and the closing combination `(x + agg) + b` —
  and leaves the irregular middle to the same host operations the reference uses. So over the extended reals the two
  results are the same function of the arguments once (i) each tiled stage is read as one whole-array function
  (`Spec.mm`, `Spec.comb`: the twenty tiles cover the 100000 rows), (ii) the host operations between them are
  carried as one function `aggOf` on both sides, and (iii) `x + (a + b) = (x + a) + b`, which holds for all
  extended reals, infinite ones included: the precondition is not used.
  The three frames are the generated ones (the reference's is its run with the result dropped); the idealization
  rewrote nothing, so `preserves` is trivial.
-/
import proofs.«155171_j38319698215460_1_alg».proof.Defs
import proofs.«155171_j38319698215460_1_alg».proof.Proof.Gen.Kernel
import proofs.«155171_j38319698215460_1_alg».proof.Proof.Gen.Kernel.Frame
import proofs.«155171_j38319698215460_1_alg».proof.Proof.Gen.KernelIdeal
import proofs.«155171_j38319698215460_1_alg».proof.Proof.Gen.KernelIdeal.Frame
import proofs.«155171_j38319698215460_1_alg».proof.Proof.Gen.ReferenceIdeal
import proofs.«155171_j38319698215460_1_alg».proof.Proof.Gen.Pre_finite_inputs
import proofs.«155171_j38319698215460_1_alg».proof.Proof.RefRun
import proofs.«155171_j38319698215460_1_alg».proof.Proof.RefRead
import proofs.«155171_j38319698215460_1_alg».proof.Proof.RunNamed
import proofs.«155171_j38319698215460_1_alg».proof.Proof.KernelValue
import proofs.«155171_j38319698215460_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end with `(x + aggOf (x · W) e) + b` in their result arrays: the kernel's by its run with the
    result named and the two tiled stages read whole, the reference's by its run, its stages and associativity. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.comb (m ((c.tc : Thread Cert.KernelIdeal.nD Cert.KernelIdeal.τ).loc Cert.KernelIdeal.main_arg0))
      (Cert.KernelIdeal.Host.aggOf (Cert.Spec.mm (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg1)))
      (shapeCast Cert.KernelIdeal.S1x128 (m ((c.tc : Thread Cert.KernelIdeal.nD Cert.KernelIdeal.τ).loc Cert.KernelIdeal.main_arg3))
        Cert.KernelIdeal.Gen.shapeCasts_S128_S1x128), ?_, ?_⟩
  · exact (θ_run Cert.KernelIdeal.defs _ _).mono
      (fun r h c => ⟨(h c).1.trans (Cert.KernelIdeal.Result.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v49_eq, (hagree c).1, (hagree c).2.1, (hagree c).2.2.1, (hagree c).2.2.2]
    exact Cert.Bridge.ref_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
